-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x1x2048x2048 : Shape := ⟨4, ![4, 1, 2048, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) (main_arg3 : IVec S4x1x2048x2048 32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S4x1x2048x2048 : Shape := ⟨4, ![4, 1, 2048, 2048]⟩
abbrev S4x16x2048x2048 : Shape := ⟨4, ![4, 16, 2048, 2048]⟩
abbrev S1x1x256x64 : Shape := ⟨4, ![1, 1, 256, 64]⟩
abbrev S1x16x2048x64 : Shape := ⟨4, ![1, 16, 2048, 64]⟩
abbrev S1x1x256x2048 : Shape := ⟨4, ![1, 1, 256, 2048]⟩
abbrev S256x64 : Shape := ⟨2, ![256, 64]⟩
abbrev S1x1x2048x64 : Shape := ⟨4, ![1, 1, 2048, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x2048x2048, .i32⟩
  | .hbm, ⟨4, _⟩ => ⟨S4x16x2048x64, .bf16⟩
  | .hbm, ⟨5, _⟩ => ⟨S4x16x2048x64, .bf16⟩
  | .hbm, ⟨6, _⟩ => ⟨S4x16x2048x64, .f32⟩
  | .hbm, ⟨7, _⟩ => ⟨S4x16x2048x2048, .f32⟩
  | .local _ .vmem, ⟨0, _⟩ => ⟨S1x1x256x64, .f32⟩
  | .local _ .vmem, ⟨1, _⟩ => ⟨S1x1x256x64, .f32⟩
  | .local _ .vmem, ⟨2, _⟩ => ⟨S1x16x2048x64, .bf16⟩
  | .local _ .vmem, ⟨3, _⟩ => ⟨S1x16x2048x64, .bf16⟩
  | .local _ .vmem, ⟨4, _⟩ => ⟨S1x16x2048x64, .bf16⟩
  | .local _ .vmem, ⟨5, _⟩ => ⟨S1x16x2048x64, .bf16⟩
  | .local _ .vmem, ⟨6, _⟩ => ⟨S1x1x256x2048, .i32⟩
  | .local _ .vmem, ⟨7, _⟩ => ⟨S1x1x256x2048, .i32⟩
  | .local _ .vmem, ⟨8, _⟩ => ⟨S1x1x256x64, .f32⟩
  | .local _ .vmem, ⟨9, _⟩ => ⟨S1x1x256x64, .f32⟩
  | .local _ .vmem, ⟨10, _⟩ => ⟨S1x1x256x2048, .f32⟩
  | .local _ .vmem, ⟨11, _⟩ => ⟨S1x1x256x2048, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 16], ![false, false, false]⟩

def k0_off1 (i : grid0.Coords) : Fin 4 → Nat :=
  let c0_3 : Index := 0#32
  let arg2 : BitVec 32 := BitVec.ofNat 32 (i 2).val
  let v2 : Index := Scalar.indexCast arg2
  let c0_4 : Index := 0#32
  let c0_5 : Index := 0#32
  ![0, v2.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x16x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  bitsLt_bf16_f32 : FTy.bits .bf16 < FTy.bits .f32
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  h_S1x1x2048x64 : 0 < S1x1x2048x64.numel
  shapeCasts_S1x1x2048x64_S2048x64 : S1x1x2048x64.ShapeCasts S2048x64
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x2048_S1x1x256x2048 : S256x2048.ShapeCasts S1x1x256x2048
  shapeCasts_S256x64_S1x1x256x64 : S256x64.ShapeCasts S1x1x256x64
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  k0_off1_inb : ∀ i : grid0.Coords, ∀ a, (k0_off1 i) a + S1x1x2048x64.size a ≤ S1x16x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x64.size a ≤ S4x16x2048x64.size a
  hwx0_0 : ∀ i : grid0.Coords, EltTy.bits .f32 = 32 ∨ (Rect.block (s := S4x16x2048x64) S1x1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x2048x64.size a ≤ S4x16x2048x64.size a
  hwx0_1 : ∀ i : grid0.Coords, EltTy.bits .bf16 = 32 ∨ (Rect.block (s := S4x16x2048x64) S1x16x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x2048x64.size a ≤ S4x16x2048x64.size a
  hwx0_2 : ∀ i : grid0.Coords, EltTy.bits .bf16 = 32 ∨ (Rect.block (s := S4x16x2048x64) S1x16x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x2048.size a ≤ S4x1x2048x2048.size a
  hwx0_3 : ∀ i : grid0.Coords, EltTy.bits .i32 = 32 ∨ (Rect.block (s := S4x1x2048x2048) S1x1x256x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256x64.size a ≤ S4x16x2048x64.size a
  hwx0_4 : ∀ i : grid0.Coords, EltTy.bits .f32 = 32 ∨ (Rect.block (s := S4x16x2048x64) S1x1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256x2048.size a ≤ S4x16x2048x2048.size a
  hwx0_5 : ∀ i : grid0.Coords, EltTy.bits .f32 = 32 ∨ (Rect.block (s := S4x16x2048x2048) S1x1x256x2048.size (cc0_transform_5 i) (hinb0_5 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x16x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x1x2048x2048 : Shape := ⟨4, ![4, 1, 2048, 2048]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x2048x2048, .i32⟩
  | .hbm, ⟨4, _⟩ => ⟨S_, .f32⟩
  | .hbm, ⟨5, _⟩ => ⟨S4x16x2048x64, .f32⟩
  | .hbm, ⟨6, _⟩ => ⟨S4x16x2048x64, .f32⟩
  | .hbm, ⟨7, _⟩ => ⟨S4x16x2048x2048, .f32⟩
  | .hbm, ⟨8, _⟩ => ⟨S_, .i32⟩
  | .hbm, ⟨9, _⟩ => ⟨S4x1x2048x2048, .i32⟩
  | .hbm, ⟨10, _⟩ => ⟨S4x1x2048x2048, .i1⟩
  | .hbm, ⟨11, _⟩ => ⟨S_, .f32⟩
  | .hbm, ⟨12, _⟩ => ⟨S_, .f32⟩
  | .hbm, ⟨13, _⟩ => ⟨S4x16x2048x2048, .i1⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048, .f32⟩
  | .hbm, ⟨18, _⟩ => ⟨S_, .f32⟩
  | .hbm, ⟨19, _⟩ => ⟨S4x16x2048, .f32⟩
  | .hbm, ⟨20, _⟩ => ⟨S4x16x2048, .f32⟩
  | .hbm, ⟨21, _⟩ => ⟨S4x16x2048x1, .f32⟩
  | .hbm, ⟨22, _⟩ => ⟨S4x16x2048x2048, .f32⟩
  | .hbm, ⟨23, _⟩ => ⟨S4x16x2048x2048, .f32⟩
  | .hbm, ⟨24, _⟩ => ⟨S4x16x2048x2048, .f32⟩
  | .hbm, ⟨25, _⟩ => ⟨S_, .f32⟩
  | .hbm, ⟨26, _⟩ => ⟨S4x16x2048, .f32⟩
  | .hbm, ⟨27, _⟩ => ⟨S4x16x2048x1, .f32⟩
  | .hbm, ⟨28, _⟩ => ⟨S4x16x2048x2048, .f32⟩
  | .hbm, ⟨29, _⟩ => ⟨S4x16x2048x2048, .f32⟩
  | .hbm, ⟨30, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  bcast_S_S4x16x2048x64 : S_.BroadcastsInDim S4x16x2048x64 (![] : Fin 0 → Fin S4x16x2048x64.rank)
  bcast_S_S4x1x2048x2048 : S_.BroadcastsInDim S4x1x2048x2048 (![] : Fin 0 → Fin S4x1x2048x2048.rank)
  bcast_S4x1x2048x2048_S4x16x2048x2048_0_1_2_3 : S4x1x2048x2048.BroadcastsInDim S4x16x2048x2048 (![0, 1, 2, 3] : Fin 4 → Fin S4x16x2048x2048.rank)
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Spec.lean ====
/- Masked softmax attention, one query row at a time, over the extended reals.

   A row of the result depends on one query row `qr` (64 entries), on the keys `K` and the values `V` of its
   head (2048 rows of 64 entries each) and on one row `mr` of the integer mask (2048 words):

     score c   = -1e9 where the mask word is zero, else  ∑ d, (qr d · 1/8) · K c d
     prob      = the softmax of the row of scores:  with  M = the maximum of the scores, folded from -∞,
                 prob c = exp (score c - M) / ∑ c', exp (score c' - M)
     out e     = ∑ c, prob c · V c e

   Both programs compute these: the kernel for 256 query rows of one head at a grid point, the reference for the
   whole arrays at once. The float words are kept as words; only `8.0` and `0.125` are ever evaluated
   (Consts.lean), to see that dividing by the one is multiplying by the other. -/
import Idealize.ShloMosaic.PureOps.Ideal
import Idealize.ShloMosaic.PureOps.Ideal.Laws
import Idealize.ShloMosaic.Lib.ValueIdx
import Mathlib.Data.Finset.Fold

noncomputable section

namespace Cert.Attn.Spec

open Idealize.ShloMosaic Idealize.ShloMosaic.ValueIdx

/-- The fill value of a masked score: the word of `-1.0e9`. -/
abbrev negBig : EReal := Ideal.ofBits .f32 0xCE6E6B28#32
/-- The value the row maximum is folded from: the word of `-∞`. -/
abbrev negInf : EReal := Ideal.ofBits .f32 0xFF800000#32
/-- The query scale: the word of `0.125`. -/
abbrev eighth : EReal := Ideal.ofBits .f32 0x3E000000#32

/-! ## The softmax of a row of 2048 extended reals -/

section Softmax

variable (f : Fin 2048 → EReal)

/-- The row's largest entry, folded from `-∞`. -/
def rowMaxOf : EReal := (Finset.univ : Finset (Fin 2048)).fold max negInf f

/-- The shifted exponential of entry `c`. -/
def expoOf (c : Fin 2048) : EReal := Ideal.exp (f c - rowMaxOf f)

/-- The row's normaliser. -/
def rowSumOf : EReal := ∑ c : Fin 2048, expoOf f c

/-- Entry `c` of the row's softmax. -/
def softmaxOf (c : Fin 2048) : EReal := Ideal.div (expoOf f c) (rowSumOf f)

/-- Taking the maximum with the fold's own starting value changes nothing: the fold is at least where it started. -/
theorem max_negInf_rowMaxOf : max negInf (rowMaxOf f) = rowMaxOf f :=
  max_eq_right ((Finset.le_fold_max _).mpr (Or.inl le_rfl))

end Softmax

/-! ## One query row -/

section Row

variable (qr : Fin 64 → EReal) (K : Fin 2048 → Fin 64 → EReal) (mr : Fin 2048 → BitVec 32)

/-- The masked, scaled score of the query row against key row `c`. -/
def score (c : Fin 2048) : EReal :=
  Scalar.select (IntOp.cmpi .eq (mr c) 0#32) negBig (∑ d : Fin 64, (qr d * eighth) * K c d)

/-- The attention weight the query row gives key row `c`: the softmax of its scores. -/
def prob (c : Fin 2048) : EReal := softmaxOf (score qr K mr) c

/-- Entry `e` of the row's output: the weights applied to the values. -/
def out (V : Fin 2048 → Fin 64 → EReal) (e : Fin 64) : EReal := ∑ c : Fin 2048, prob qr K mr c * V c e

end Row

/-! ## The two result arrays as functions of the four argument arrays -/

abbrev Sqkv : Shape := ⟨4, ![4, 16, 2048, 64]⟩
abbrev Smask : Shape := ⟨4, ![4, 1, 2048, 2048]⟩
abbrev Sattn : Shape := ⟨4, ![4, 16, 2048, 2048]⟩

variable (q k v : Sqkv.Idx → EReal) (mask : Smask.Idx → BitVec 32)

/-- Query row `r` of head `h` of batch `b`. -/
abbrev qRow (b : Fin 4) (h : Fin 16) (r : Fin 2048) : Fin 64 → EReal := fun d => q (ix4 b h r d)
/-- The rows of head `h` of batch `b` of a key or value array. -/
abbrev headRows (x : Sqkv.Idx → EReal) (b : Fin 4) (h : Fin 16) : Fin 2048 → Fin 64 → EReal := fun c d => x (ix4 b h c d)
/-- Mask row `r` of batch `b` (the mask has one head, shared by all sixteen). -/
abbrev maskRow (b : Fin 4) (r : Fin 2048) : Fin 2048 → BitVec 32 := fun c => mask (ix4 b (0 : Fin 1) r c)

/-- The attention weights, as an array. -/
def attnArr : Sattn.Idx → EReal := fun i =>
  prob (qRow q (i 0) (i 1) (i 2)) (headRows k (i 0) (i 1)) (maskRow mask (i 0) (i 2)) (i 3)

/-- The attention output, as an array. -/
def outArr : Sqkv.Idx → EReal := fun i =>
  out (qRow q (i 0) (i 1) (i 2)) (headRows k (i 0) (i 1)) (maskRow mask (i 0) (i 2)) (headRows v (i 0) (i 1)) (i 3)

end Cert.Attn.Spec

end
-- ==== Proof.Layout.lean ====
/- Four re-layouts the kernel's body performs on a block, each read at an index written by coordinates:
   the two unit axes of a staged `[1, 1, a, b]` block dropped and put back, a vector of row results stood up as a
   column, and that column spread over the `b` entries of each row. None of them moves a value: each entry of
   the result is the operand's entry at the matching coordinates. -/
import Idealize.ShloMosaic.Lib.ValueLayout

namespace Cert.Attn.Layout

open Idealize.ShloMosaic Idealize.ShloMosaic.ValueIdx

variable {α : Type}

/-- A `[1, 1, a, b]` block cast to `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` matrix cast to `[1, 1, a, b]` reads, at `(u, u', i, j)`, the matrix at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.KernelRow.lean ====
/- What the kernel's body computes on one grid point's blocks, entry by entry, at the ideal instance.

   The body receives a `[1, 1, 256, 64]` block of queries `x0`, the `[1, 1, 2048, 64]` rows `kh` and `vh` of the
   point's head cut from the staged all-heads key and value blocks, and a `[1, 1, 256, 2048]` block of mask
   words `x3`. Its arithmetic splits in two: the masked scores of the block (a matrix product of the scaled
   queries with the keys, then the fill) and the row softmax of those scores (row maximum, shifted exponential,
   row sum, quotient). Row `r` of the scores is `Spec.score` of query row `r`, so row `r` of the weights is
   `Spec.prob` and row `r` of the second matrix product is `Spec.out`: format changes are the identity, each
   matrix product into a zero accumulator is the plain sum over the contracted axis, and the two row reductions
   are the fold of `max` and the sum over the row's 2048 entries. -/
import proofs.«407198_j1580547967909_3_alg».proof.Proof.Gen.KernelIdeal.Skeleton
import proofs.«407198_j1580547967909_3_alg».proof.Proof.Spec
import proofs.«407198_j1580547967909_3_alg».proof.Proof.Layout
import Idealize.ShloMosaic.PureOps.Ideal.Laws
import Idealize.ShloMosaic.Lib.ValueIdx
import Idealize.ShloMosaic.Lib.ValueLayout

noncomputable section

namespace Cert.KernelIdeal.Row

open Cert.KernelIdeal Cert.KernelIdeal.Gen Idealize.ShloMosaic Idealize.ShloMosaic.ValueIdx
open Cert.Attn

/-! ## The body's arithmetic in two named stages -/

section Stages

variable {F : FTy → Type} [FloatOps F]

/-- The scaled queries times the keys: the `[256, 2048]` block of raw scores. -/
def qkBlk (x0 : Vec F S1x1x256x64 .f32) (kh : Vec F S1x1x2048x64 .bf16) : FVec F S256x2048 .f32 :=
  matmul dot_S256x64_S2048x64_S256x2048_1_1_0_0_n_n none
    (truncf .bf16 (mulf (shapeCast S256x64 x0 shapeCasts_S1x1x256x64_S256x64) (broadcast S256x64 (Scalar.ofBits .f32 0x3E000000#32))) bitsLt_bf16_f32)
    (shapeCast S2048x64 kh shapeCasts_S1x1x2048x64_S2048x64) (constant S256x2048 .f32 0x00000000#32)

/-- The raw scores with the fill value wherever the mask word is zero. -/
def scoreBlk (x0 : Vec F S1x1x256x64 .f32) (kh : Vec F S1x1x2048x64 .bf16) (x3 : Vec F S1x1x256x2048 .i32) : FVec F S256x2048 .f32 :=
  select (cmpi .eq (shapeCast S256x2048 x3 shapeCasts_S1x1x256x2048_S256x2048) (broadcast S256x2048 0#32))
    (broadcast S256x2048 (Scalar.ofBits .f32 0xCE6E6B28#32)) (qkBlk x0 kh)

/-- A vector of 256 row results spread over the 2048 entries of each row. -/
def colSpread (v : FVec F S256 .f32) : FVec F S256x2048 .f32 :=
  broadcastTo S256x2048 (shapeCast S256x1 v shapeCasts_S256_S256x1) broadcasts_S256x1_S256x2048

/-- The exponential of a block minus its row maxima. -/
def expBlk (s : FVec F S256x2048 .f32) : FVec F S256x2048 .f32 :=
  exp (subf s (colSpread (multiReduction .maximumf [1] S256 s 0xFF800000#32 reduces_S256x2048_S256 (.inl rfl) rfl)))

/-- The row softmax of a block. -/
def softmaxBlk (s : FVec F S256x2048 .f32) : FVec F S256x2048 .f32 :=
  divf (expBlk s) (colSpread (multiReduction .add [1] S256 (expBlk s) 0x00000000#32 reduces_S256x2048_S256 (.inl rfl) rfl))

/-- The body's weights are the row softmax of its masked scores. -/
theorem pay2_eq (x0 : Vec F S1x1x256x64 .f32) (kh : Vec F S1x1x2048x64 .bf16) (x3 : Vec F S1x1x256x2048 .i32) :
    k0_pay2 x0 kh x3 = softmaxBlk (scoreBlk x0 kh x3) := rfl

end Stages

/-! ## The two matrix products read at an index -/

theorem lhs_qk_0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem lhs_qk_1 (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
theorem rhs_qk_0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem rhs_qk_1 (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q

/-- Queries times keys into the zero block: entry `(p, c)` is the sum over the 64 features of query row `p` times key row `c`. -/
theorem matmul_qk_apply (l : FVec Ideal S256x64 .bf16) (r : FVec Ideal S2048x64 .bf16) (p : Fin 256) (c : Fin 2048) :
    matmul dot_S256x64_S2048x64_S256x2048_1_1_0_0_n_n none l r (constant (F := Ideal) S256x2048 .f32 0x00000000#32) (ix2 p c)
      = ∑ d : Fin 64, l (ix2 p d) * r (ix2 c d) := by
  simp only [matmul]
  rw [Ideal.matmul_constant_zero_apply, ← Equiv.sum_comp (ValueIdx.contrEquiv1 dot_S256x64_S2048x64_S256x2048_1_1_0_0_n_n 64 rfl rfl).symm]
  refine Finset.sum_congr rfl fun k _ => ?_
  have hk := ValueIdx.contrEquiv1_symm_val dot_S256x64_S2048x64_S256x2048_1_1_0_0_n_n 64 rfl rfl k
  have el : dot_S256x64_S2048x64_S256x2048_1_1_0_0_n_n.lhsIdx (ix2 p c) ((ValueIdx.contrEquiv1 dot_S256x64_S2048x64_S256x2048_1_1_0_0_n_n 64 rfl rfl).symm k) = ix2 p k := funext fun a => Fin.ext (by
    match a with
    | ⟨0, _⟩ => exact lhs_qk_0 _ _
    | ⟨1, _⟩ => exact (lhs_qk_1 _ _).trans hk)
  have er : dot_S256x64_S2048x64_S256x2048_1_1_0_0_n_n.rhsIdx (ix2 p c) ((ValueIdx.contrEquiv1 dot_S256x64_S2048x64_S256x2048_1_1_0_0_n_n 64 rfl rfl).symm k) = ix2 c k := funext fun a => Fin.ext (by
    match a with
    | ⟨0, _⟩ => exact rhs_qk_0 _ _
    | ⟨1, _⟩ => exact (rhs_qk_1 _ _).trans hk)
  rw [el, er]

theorem lhs_pv_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhs_pv_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem rhs_pv_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem rhs_pv_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- Weights times values into the zero block: entry `(p, e)` is the sum over the 2048 key rows of weight `(p, c)` times value `(c, e)`. -/
theorem matmul_pv_apply (l : FVec Ideal S256x2048 .bf16) (r : FVec Ideal S2048x64 .bf16) (p : Fin 256) (e : Fin 64) :
    matmul dot_S256x2048_S2048x64_S256x64_1_0_0_1_n_n none l r (constant (F := Ideal) S256x64 .f32 0x00000000#32) (ix2 p e)
      = ∑ c : Fin 2048, l (ix2 p c) * r (ix2 c e) := by
  simp only [matmul]
  rw [Ideal.matmul_constant_zero_apply, ← Equiv.sum_comp (ValueIdx.contrEquiv1 dot_S256x2048_S2048x64_S256x64_1_0_0_1_n_n 2048 rfl rfl).symm]
  refine Finset.sum_congr rfl fun k _ => ?_
  have hk := ValueIdx.contrEquiv1_symm_val dot_S256x2048_S2048x64_S256x64_1_0_0_1_n_n 2048 rfl rfl k
  have el : dot_S256x2048_S2048x64_S256x64_1_0_0_1_n_n.lhsIdx (ix2 p e) ((ValueIdx.contrEquiv1 dot_S256x2048_S2048x64_S256x64_1_0_0_1_n_n 2048 rfl rfl).symm k) = ix2 p k := funext fun a => Fin.ext (by
    match a with
    | ⟨0, _⟩ => exact lhs_pv_0 _ _
    | ⟨1, _⟩ => exact (lhs_pv_1 _ _).trans hk)
  have er : dot_S256x2048_S2048x64_S256x64_1_0_0_1_n_n.rhsIdx (ix2 p e) ((ValueIdx.contrEquiv1 dot_S256x2048_S2048x64_S256x64_1_0_0_1_n_n 2048 rfl rfl).symm k) = ix2 k e := funext fun a => Fin.ext (by
    match a with
    | ⟨0, _⟩ => exact (rhs_pv_0 _ _).trans hk
    | ⟨1, _⟩ => exact rhs_pv_1 _ _)
  rw [el, er]

/-! ## The rows of a block -/

/-- Query row `r` of the block. -/
abbrev qRowOf (x0 : Vec Ideal S1x1x256x64 .f32) (r : Fin 256) : Fin 64 → EReal := fun d => x0 (ix4 (0 : Fin 1) (0 : Fin 1) r d)
/-- The 2048 rows of the head's keys (or values). -/
abbrev rowsOf (kh : Vec Ideal S1x1x2048x64 .bf16) : Fin 2048 → Fin 64 → EReal := fun c d => kh (ix4 (0 : Fin 1) (0 : Fin 1) c d)
/-- Mask row `r` of the block. -/
abbrev mRowOf (x3 : Vec Ideal S1x1x256x2048 .i32) (r : Fin 256) : Fin 2048 → BitVec 32 := fun c => x3 (ix4 (0 : Fin 1) (0 : Fin 1) r c)

/-- Entry `(r, c)` of the raw scores: the scaled query row against key row `c`. -/
theorem qkBlk_apply (x0 : Vec Ideal S1x1x256x64 .f32) (kh : Vec Ideal S1x1x2048x64 .bf16) (r : Fin 256) (c : Fin 2048) :
    qkBlk x0 kh (ix2 r c) = ∑ d : Fin 64, (qRowOf x0 r d * Spec.eighth) * rowsOf kh c d := by
  unfold qkBlk
  refine (matmul_qk_apply _ _ r c).trans (Finset.sum_congr rfl fun d _ => ?_)
  have hq : shapeCast S256x64 x0 shapeCasts_S1x1x256x64_S256x64 (ix2 r d) = x0 (ix4 (0 : Fin 1) (0 : Fin 1) r d) :=
    Layout.shapeCast_11ab_ab_apply x0 _ r d
  have hk : shapeCast S2048x64 kh shapeCasts_S1x1x2048x64_S2048x64 (ix2 c d) = kh (ix4 (0 : Fin 1) (0 : Fin 1) c d) :=
    Layout.shapeCast_11ab_ab_apply kh _ c d
  show (shapeCast S256x64 x0 shapeCasts_S1x1x256x64_S256x64 (ix2 r d) * Ideal.ofBits .f32 0x3E000000#32)
      * shapeCast S2048x64 kh shapeCasts_S1x1x2048x64_S2048x64 (ix2 c d) = _
  rw [hq, hk]

/-- Entry `(r, c)` of the masked scores is the row specification's score. -/
theorem scoreBlk_apply (x0 : Vec Ideal S1x1x256x64 .f32) (kh : Vec Ideal S1x1x2048x64 .bf16) (x3 : Vec Ideal S1x1x256x2048 .i32)
    (r : Fin 256) (c : Fin 2048) :
    scoreBlk x0 kh x3 (ix2 r c) = Spec.score (qRowOf x0 r) (rowsOf kh) (mRowOf x3 r) c := by
  have hm : shapeCast S256x2048 x3 shapeCasts_S1x1x256x2048_S256x2048 (ix2 r c) = x3 (ix4 (0 : Fin 1) (0 : Fin 1) r c) :=
    Layout.shapeCast_11ab_ab_apply x3 _ r c
  show Scalar.select (IntOp.cmpi .eq (shapeCast S256x2048 x3 shapeCasts_S1x1x256x2048_S256x2048 (ix2 r c)) 0#32)
      (Ideal.ofBits .f32 0xCE6E6B28#32) (qkBlk x0 kh (ix2 r c)) = _
  rw [hm, qkBlk_apply]
  rfl

/-! ## The row reductions and the softmax -/

/-- The reduced index `r` with coordinate `k` put back on the reduced axis is `(r, k)`. -/
theorem lift_row (r : Fin 256) (k : Fin 2048) :
    (reduces_S256x2048_S256 : S256x2048.Reduces [1] S256).lift (ix1 r) k = ix2 r k :=
  funext fun a => Fin.ext (by match a with | ⟨0, _⟩ => rfl | ⟨1, _⟩ => rfl)

/-- The block's row maximum at `r`: the fold of `max` from `-∞` over the row's entries. -/
theorem rowMax_apply (s : FVec Ideal S256x2048 .f32) (hφ : FKind.Formats .f32)
    (hacc : (0xFF800000#32 : BitVec 32) = FKind.maximumf.neutral .f32 hφ) (r : Fin 256) :
    multiReduction .maximumf [1] S256 s 0xFF800000#32 reduces_S256x2048_S256 hφ hacc (ix1 r)
      = Spec.rowMaxOf fun c => s (ix2 r c) := by
  refine (Ideal.multiReduction_maximumf_single s 0xFF800000#32 reduces_S256x2048_S256 hφ hacc (ix1 r)).trans ?_
  unfold Spec.rowMaxOf
  refine congrArg (Finset.fold max _ · Finset.univ) (funext fun k => ?_)
  exact congrArg s (lift_row r k)

/-- The block's row sum at `r`: the sum of the row's entries. -/
theorem rowSum_apply (s : FVec Ideal S256x2048 .f32) (hφ : FKind.Formats .f32)
    (hacc : (0x00000000#32 : BitVec 32) = FKind.add.neutral .f32 hφ) (r : Fin 256) :
    multiReduction .add [1] S256 s 0x00000000#32 reduces_S256x2048_S256 hφ hacc (ix1 r)
      = ∑ c : Fin 2048, s (ix2 r c) := by
  refine (Ideal.multiReduction_add_single s 0x00000000#32 reduces_S256x2048_S256 hφ hacc (ix1 r)).trans ?_
  exact Finset.sum_congr rfl fun k _ => congrArg s (lift_row r k)

/-- A spread column reads, at `(r, c)`, the row result of row `r`. -/
theorem colSpread_apply (v : FVec Ideal S256 .f32) (r : Fin 256) (c : Fin 2048) : colSpread v (ix2 r c) = v (ix1 r) :=
  (Layout.broadcastTo_a1_ab_apply _ broadcasts_S256x1_S256x2048 r c).trans
    (Layout.shapeCast_a_a1_apply v shapeCasts_S256_S256x1 r (0 : Fin 1))

/-- Entry `(r, c)` of the shifted exponential is the row specification's, of row `r` of the block. -/
theorem expBlk_apply (s : FVec Ideal S256x2048 .f32) (r : Fin 256) (c : Fin 2048) :
    expBlk s (ix2 r c) = Spec.expoOf (fun c' => s (ix2 r c')) c := by
  show Ideal.exp (s (ix2 r c) - colSpread (multiReduction .maximumf [1] S256 s 0xFF800000#32 reduces_S256x2048_S256 (.inl rfl) rfl) (ix2 r c)) = _
  rw [colSpread_apply]
  exact congrArg (fun M => Ideal.exp (s (ix2 r c) - M)) (rowMax_apply s _ _ r)

/-- Entry `(r, c)` of the block's row softmax is the softmax of row `r`. -/
theorem softmaxBlk_apply (s : FVec Ideal S256x2048 .f32) (r : Fin 256) (c : Fin 2048) :
    softmaxBlk s (ix2 r c) = Spec.softmaxOf (fun c' => s (ix2 r c')) c := by
  show Ideal.div (expBlk s (ix2 r c))
      (colSpread (multiReduction .add [1] S256 (expBlk s) 0x00000000#32 reduces_S256x2048_S256 (.inl rfl) rfl) (ix2 r c)) = _
  rw [colSpread_apply, expBlk_apply]
  unfold Spec.softmaxOf Spec.rowSumOf
  refine congrArg (Ideal.div _) ((rowSum_apply (expBlk s) _ _ r).trans ?_)
  exact Finset.sum_congr rfl fun k _ => expBlk_apply s r k

/-! ## The body's two stored payloads at an index -/

/-- Entry `(r, c)` of the body's weights: the attention weight query row `r` gives key row `c`. -/
theorem pay2_apply (x0 : Vec Ideal S1x1x256x64 .f32) (kh : Vec Ideal S1x1x2048x64 .bf16) (x3 : Vec Ideal S1x1x256x2048 .i32)
    (r : Fin 256) (c : Fin 2048) :
    k0_pay2 x0 kh x3 (ix2 r c) = Spec.prob (qRowOf x0 r) (rowsOf kh) (mRowOf x3 r) c := by
  rw [pay2_eq, softmaxBlk_apply]
  unfold Spec.prob
  exact congrArg (Spec.softmaxOf · c) (funext fun c' => scoreBlk_apply x0 kh x3 r c')

/-- The stored weights block at `(u, u', r, c)`. -/
theorem pay3_apply (x0 : Vec Ideal S1x1x256x64 .f32) (kh : Vec Ideal S1x1x2048x64 .bf16) (x3 : Vec Ideal S1x1x256x2048 .i32)
    (u u' : Fin 1) (r : Fin 256) (c : Fin 2048) :
    k0_pay3 x0 kh x3 (ix4 u u' r c) = Spec.prob (qRowOf x0 r) (rowsOf kh) (mRowOf x3 r) c :=
  (Layout.shapeCast_ab_11ab_apply (k0_pay2 x0 kh x3) shapeCasts_S256x2048_S1x1x256x2048 u u' r c).trans (pay2_apply x0 kh x3 r c)

/-- Entry `(r, e)` of the weights times the values. -/
theorem pay4_apply (x0 : Vec Ideal S1x1x256x64 .f32) (kh vh : Vec Ideal S1x1x2048x64 .bf16) (x3 : Vec Ideal S1x1x256x2048 .i32)
    (r : Fin 256) (e : Fin 64) :
    k0_pay4 x0 kh vh x3 (ix2 r e) = Spec.out (qRowOf x0 r) (rowsOf kh) (mRowOf x3 r) (rowsOf vh) e := by
  unfold k0_pay4
  refine (matmul_pv_apply _ _ r e).trans (Finset.sum_congr rfl fun c _ => ?_)
  have hv : shapeCast S2048x64 vh shapeCasts_S1x1x2048x64_S2048x64 (ix2 c e) = vh (ix4 (0 : Fin 1) (0 : Fin 1) c e) :=
    Layout.shapeCast_11ab_ab_apply vh _ c e
  show k0_pay2 x0 kh x3 (ix2 r c) * shapeCast S2048x64 vh shapeCasts_S1x1x2048x64_S2048x64 (ix2 c e) = _
  rw [hv, pay2_apply]

/-- The stored output block at `(u, u', r, e)`. -/
theorem pay1_pay4_apply (x0 : Vec Ideal S1x1x256x64 .f32) (kh vh : Vec Ideal S1x1x2048x64 .bf16) (x3 : Vec Ideal S1x1x256x2048 .i32)
    (u u' : Fin 1) (r : Fin 256) (e : Fin 64) :
    k0_pay1 (k0_pay4 x0 kh vh x3) (ix4 u u' r e) = Spec.out (qRowOf x0 r) (rowsOf kh) (mRowOf x3 r) (rowsOf vh) e :=
  (Layout.shapeCast_ab_11ab_apply (k0_pay4 x0 kh vh x3) shapeCasts_S256x64_S1x1x256x64 u u' r e).trans (pay4_apply x0 kh vh x3 r e)

end Cert.KernelIdeal.Row

end
-- ==== Proof.KernelValue.lean ====
/- The kernel's two result arrays as functions of its four argument arrays, at the ideal instance.

   The grid has 4 · 8 · 16 points, one per (batch `b`, tile `qi` of 256 query rows, head `h`), the head fastest.
   At a point the body sees the query block `(b, h, qi)`, the all-heads key and value blocks of batch `b` — of
   which it reads head `h`'s rows —, and the mask block `(b, 0, qi)`; it leaves the weights block and the output
   block `(b, h, qi)`, and both are written back at every point. So each point's write-back is its block of the
   specification's arrays (Spec.lean), the blocks tile the arrays, and the arrays after the run are the
   specification's. The keys and values reach the region through a format change of the host, which at the
   ideal instance changes nothing. -/
import proofs.«407198_j1580547967909_3_alg».proof.Proof.Gen.KernelIdeal.Value
import proofs.«407198_j1580547967909_3_alg».proof.Proof.KernelRow
import Idealize.ShloMosaic.Lib.Pipeline.Value
import Idealize.ShloMosaic.Lib.StableHlo.Run
import Idealize.ShloMosaic.Lib.Tactic
import Idealize.ShloMosaic.Lib.Decide

set_option Elab.async false

noncomputable section

namespace Cert.KernelIdeal.AttnValue

open Cert.KernelIdeal Cert.KernelIdeal.Gen Idealize.ShloMosaic Idealize.ShloMosaic.TcCoe Idealize.SL.Sem
open Idealize.ShloMosaic.Pipeline (Dat)
open Idealize.ShloMosaic.ValueIdx
open Cert.Attn

/-! ## What the body leaves in its two output buffers -/

section Pieces

variable {F : FTy → Type} [FloatOps F]

theorem hz4 : (![0, 0, 0, 0] : Fin 4 → Nat) = fun _ => 0 := funext fun a => by fin_cases a <;> rfl

/-- The rows of the point's head, cut from a staged all-heads block. -/
abbrev headOf (i : grid0.Coords) (x : Vec F S1x16x2048x64 .bf16) : Vec F S1x1x2048x64 .bf16 :=
  View.ld x (Rect.unit (s := S1x16x2048x64) (k0_off1 i) S1x1x2048x64.size (k0_off1_inb i))

/-- The weights buffer ends at the body's weights of the query block, the head's keys and the mask block. -/
theorem out5_eq (c : Dev nD) (i : grid0.Coords) (arg3 : Memref sig .tc .vmem S1x1x256x64 .f32) (harg3 : arg3.IsWhole) (arg4 : Memref sig .tc .vmem S1x16x2048x64 .bf16) (harg4 : arg4.IsWhole) (arg5 : Memref sig .tc .vmem S1x16x2048x64 .bf16) (harg5 : arg5.IsWhole) (arg6 : Memref sig .tc .vmem S1x1x256x2048 .i32) (harg6 : arg6.IsWhole) (arg7 : Memref sig .tc .vmem S1x1x256x64 .f32) (harg7 : arg7.IsWhole) (arg8 : Memref sig .tc .vmem S1x1x256x2048 .f32) (harg8 : arg8.IsWhole)
    (x0 : Vec F S1x1x256x64 .f32) (x1 : Vec F S1x16x2048x64 .bf16) (x2 : Vec F S1x16x2048x64 .bf16) (x3 : Vec F S1x1x256x2048 .i32) :
    out0_A_5 c i arg3 harg3 arg4 harg4 arg5 harg5 arg6 harg6 arg7 harg7 arg8 harg8 x0 x1 x2 x3 = k0_pay3 x0 (headOf i x1) x3 := by
  unfold out0_A_5
  rw [View.read_writes_eq_canon _ _ _ (cover0_A_5 c i arg3 harg3 arg4 harg4 arg5 harg5 arg6 harg6 arg7 harg7 arg8 harg8 x0 x1 x2 x3)]
  unfold kernelRun0_A
  dsimp only
  sl_unfold_words
  rw [View.canon_unit_zero hz4]
  simp only [View.readAt_eq_ld, harg3.read_unread, harg4.read_unread, harg6.read_unread, View.ld_unit_zero (S := S1x1x256x64) hz4, View.ld_unit_zero (S := S1x1x256x2048) hz4]
  rfl

/-- The output buffer ends at the body's weights times the head's values. -/
theorem out4_eq (c : Dev nD) (i : grid0.Coords) (arg3 : Memref sig .tc .vmem S1x1x256x64 .f32) (harg3 : arg3.IsWhole) (arg4 : Memref sig .tc .vmem S1x16x2048x64 .bf16) (harg4 : arg4.IsWhole) (arg5 : Memref sig .tc .vmem S1x16x2048x64 .bf16) (harg5 : arg5.IsWhole) (arg6 : Memref sig .tc .vmem S1x1x256x2048 .i32) (harg6 : arg6.IsWhole) (arg7 : Memref sig .tc .vmem S1x1x256x64 .f32) (harg7 : arg7.IsWhole) (arg8 : Memref sig .tc .vmem S1x1x256x2048 .f32) (harg8 : arg8.IsWhole)
    (x0 : Vec F S1x1x256x64 .f32) (x1 : Vec F S1x16x2048x64 .bf16) (x2 : Vec F S1x16x2048x64 .bf16) (x3 : Vec F S1x1x256x2048 .i32) :
    out0_A_4 c i arg3 harg3 arg4 harg4 arg5 harg5 arg6 harg6 arg7 harg7 arg8 harg8 x0 x1 x2 x3 = k0_pay1 (k0_pay4 x0 (headOf i x1) (headOf i x2) x3) := by
  unfold out0_A_4
  rw [View.read_writes_eq_canon _ _ _ (cover0_A_4 c i arg3 harg3 arg4 harg4 arg5 harg5 arg6 harg6 arg7 harg7 arg8 harg8 x0 x1 x2 x3)]
  unfold kernelRun0_A
  dsimp only
  sl_unfold_words
  rw [View.canon_unit_zero hz4]
  simp only [View.readAt_eq_ld, harg3.read_unread, harg4.read_unread, harg5.read_unread, harg6.read_unread, View.ld_unit_zero (S := S1x1x256x64) hz4, View.ld_unit_zero (S := S1x1x256x2048) hz4]
  rfl

end Pieces

/-! ## One point's blocks against the specification's arrays -/

/-- Row `r` of tile `nq` of the 2048 query rows. -/
abbrev tileRow (nq : ℕ) (hq : nq < 8) (r : Fin 256) : Fin 2048 := ⟨nq * 256 + r.val, by have := r.isLt; omega⟩

section Point

variable (q k v : Spec.Sqkv.Idx → EReal) (mask : Spec.Smask.Idx → BitVec 32)
variable (x0 : Vec Ideal S1x1x256x64 .f32) (x1 x2 : Vec Ideal S1x16x2048x64 .bf16) (x3 : Vec Ideal S1x1x256x2048 .i32)
variable (i : grid0.Coords) (nb nh nq : ℕ) (hb : nb < 4) (hh : nh < 16) (hq : nq < 8)

/-- The head's rows of a staged all-heads block that holds batch `nb` of an array are head `nh` of that batch. -/
theorem headOf_rows (x : Vec Ideal S1x16x2048x64 .bf16) (a : Spec.Sqkv.Idx → EReal)
    (hx : ∀ (h' : Fin 16) (c : Fin 2048) (d : Fin 64), x (ix4 (0 : Fin 1) h' c d) = a (ix4 ⟨nb, hb⟩ h' c d))
    (hoff : k0_off1 i = ![0, nh, 0, 0]) :
    Row.rowsOf (headOf i x) = Spec.headRows a ⟨nb, hb⟩ ⟨nh, hh⟩ := by
  funext c d
  have o0 : k0_off1 i 0 = 0 := by rw [hoff]; rfl
  have o1 : k0_off1 i 1 = nh := by rw [hoff]; rfl
  have o2 : k0_off1 i 2 = 0 := by rw [hoff]; rfl
  have o3 : k0_off1 i 3 = 0 := by rw [hoff]; rfl
  show x ((Rect.unit (s := S1x16x2048x64) (k0_off1 i) S1x1x2048x64.size (k0_off1_inb i)).idx (ix4 (0 : Fin 1) (0 : Fin 1) c d)) = _
  refine (congrArg x (funext fun a => Fin.ext ?_)).trans (hx ⟨nh, hh⟩ c d)
  match a with
  | ⟨0, _⟩ => show k0_off1 i 0 + 1 * 0 = 0; omega
  | ⟨1, _⟩ => show k0_off1 i 1 + 1 * 0 = nh; omega
  | ⟨2, _⟩ => show k0_off1 i 2 + 1 * c.val = c.val; omega
  | ⟨3, _⟩ => show k0_off1 i 3 + 1 * d.val = d.val; omega

variable (hx0 : ∀ (r : Fin 256) (d : Fin 64), x0 (ix4 (0 : Fin 1) (0 : Fin 1) r d) = q (ix4 ⟨nb, hb⟩ ⟨nh, hh⟩ (tileRow nq hq r) d))
variable (hx1 : ∀ (h' : Fin 16) (c : Fin 2048) (d : Fin 64), x1 (ix4 (0 : Fin 1) h' c d) = k (ix4 ⟨nb, hb⟩ h' c d))
variable (hx2 : ∀ (h' : Fin 16) (c : Fin 2048) (d : Fin 64), x2 (ix4 (0 : Fin 1) h' c d) = v (ix4 ⟨nb, hb⟩ h' c d))
variable (hx3 : ∀ (r : Fin 256) (c : Fin 2048), x3 (ix4 (0 : Fin 1) (0 : Fin 1) r c) = mask (ix4 ⟨nb, hb⟩ (0 : Fin 1) (tileRow nq hq r) c))
variable (hoff : k0_off1 i = ![0, nh, 0, 0])

include hx0 hx1 hx3 hoff in
/-- The point's weights block, entry `j`, is the specification's weights array at the entry `J` the block's
    entry `j` lies at: batch `nb`, head `nh`, row `nq · 256 + j₂`, column `j₃`. -/
theorem attn_point (j : S1x1x256x2048.Idx) (J : Spec.Sattn.Idx) (hJ0 : (J 0).val = nb) (hJ1 : (J 1).val = nh)
    (hJ2 : (J 2).val = nq * 256 + (j 2).val) (hJ3 : (J 3).val = (j 3).val) :
    k0_pay3 x0 (headOf i x1) x3 j = Spec.attnArr q k mask J := by
  obtain ⟨u, u', r, c, rfl⟩ : ∃ (u u' : Fin 1) (r : Fin 256) (c : Fin 2048), j = ix4 u u' r c := ⟨j 0, j 1, j 2, j 3, eq_ix4 j⟩
  have hJ : J = ix4 ⟨nb, hb⟩ ⟨nh, hh⟩ (tileRow nq hq r) c :=
    funext fun a => Fin.ext (by match a with | ⟨0, _⟩ => exact hJ0 | ⟨1, _⟩ => exact hJ1 | ⟨2, _⟩ => exact hJ2 | ⟨3, _⟩ => exact hJ3)
  rw [hJ, Row.pay3_apply]
  have e1 : Row.qRowOf x0 r = Spec.qRow q ⟨nb, hb⟩ ⟨nh, hh⟩ (tileRow nq hq r) := funext fun d => hx0 r d
  have e2 := headOf_rows i nb nh hb hh x1 k hx1 hoff
  have e3 : Row.mRowOf x3 r = Spec.maskRow mask ⟨nb, hb⟩ (tileRow nq hq r) := funext fun c' => hx3 r c'
  rw [e1, e2, e3]
  rfl

include hx0 hx1 hx2 hx3 hoff in
/-- The point's output block, entry `j`, is the specification's output array at the entry `J` it lies at. -/
theorem out_point (j : S1x1x256x64.Idx) (J : Spec.Sqkv.Idx) (hJ0 : (J 0).val = nb) (hJ1 : (J 1).val = nh)
    (hJ2 : (J 2).val = nq * 256 + (j 2).val) (hJ3 : (J 3).val = (j 3).val) :
    k0_pay1 (k0_pay4 x0 (headOf i x1) (headOf i x2) x3) j = Spec.outArr q k v mask J := by
  obtain ⟨u, u', r, e, rfl⟩ : ∃ (u u' : Fin 1) (r : Fin 256) (e : Fin 64), j = ix4 u u' r e := ⟨j 0, j 1, j 2, j 3, eq_ix4 j⟩
  have hJ : J = ix4 ⟨nb, hb⟩ ⟨nh, hh⟩ (tileRow nq hq r) e :=
    funext fun a => Fin.ext (by match a with | ⟨0, _⟩ => exact hJ0 | ⟨1, _⟩ => exact hJ1 | ⟨2, _⟩ => exact hJ2 | ⟨3, _⟩ => exact hJ3)
  rw [hJ, Row.pay1_pay4_apply]
  have e1 : Row.qRowOf x0 r = Spec.qRow q ⟨nb, hb⟩ ⟨nh, hh⟩ (tileRow nq hq r) := funext fun d => hx0 r d
  have e2 := headOf_rows i nb nh hb hh x1 k hx1 hoff
  have e2' := headOf_rows i nb nh hb hh x2 v hx2 hoff
  have e3 : Row.mRowOf x3 r = Spec.maskRow mask ⟨nb, hb⟩ (tileRow nq hq r) := funext fun c' => hx3 r c'
  rw [e1, e2, e2', e3]
  rfl

end Point

/-! ## The grid's blocks -/

/-- The printed index maps, decided over the grid: the weights window's block index `(b, h, qi, 0)` stays in its
    ranges; the output and query windows move with it; the key and value windows follow only its batch; the mask
    window its batch and its row tile; and the head the body cuts from the staged keys and values is its head. -/
theorem idx_facts : ∀ t : Fin cfg0.N,
    win0_5.index t (0 : Fin 4) ≤ 3 ∧ win0_5.index t (1 : Fin 4) ≤ 15 ∧ win0_5.index t (2 : Fin 4) ≤ 7 ∧ win0_5.index t (3 : Fin 4) = 0
    ∧ win0_4.index t (0 : Fin 4) = win0_5.index t (0 : Fin 4) ∧ win0_4.index t (1 : Fin 4) = win0_5.index t (1 : Fin 4)
    ∧ win0_4.index t (2 : Fin 4) = win0_5.index t (2 : Fin 4) ∧ win0_4.index t (3 : Fin 4) = 0
    ∧ win0_0.index t (0 : Fin 4) = win0_5.index t (0 : Fin 4) ∧ win0_0.index t (1 : Fin 4) = win0_5.index t (1 : Fin 4)
    ∧ win0_0.index t (2 : Fin 4) = win0_5.index t (2 : Fin 4) ∧ win0_0.index t (3 : Fin 4) = 0
    ∧ win0_1.index t (0 : Fin 4) = win0_5.index t (0 : Fin 4) ∧ win0_1.index t (1 : Fin 4) = 0
    ∧ win0_1.index t (2 : Fin 4) = 0 ∧ win0_1.index t (3 : Fin 4) = 0
    ∧ win0_2.index t (0 : Fin 4) = win0_5.index t (0 : Fin 4) ∧ win0_2.index t (1 : Fin 4) = 0
    ∧ win0_2.index t (2 : Fin 4) = 0 ∧ win0_2.index t (3 : Fin 4) = 0
    ∧ win0_3.index t (0 : Fin 4) = win0_5.index t (0 : Fin 4) ∧ win0_3.index t (1 : Fin 4) = 0
    ∧ win0_3.index t (2 : Fin 4) = win0_5.index t (2 : Fin 4) ∧ win0_3.index t (3 : Fin 4) = 0
    ∧ (grid0.coords t (2 : Fin 3)).val = win0_5.index t (1 : Fin 4) :=
  (by decide +kernel : ∀ t : Fin grid0.N, _)

theorem N_eq : grid0.N = 512 := by decide

/-- Every block `(q0, q1, q2, 0)` of the weights array is some point's: the point `(q0 · 8 + q2) · 16 + q1`. -/
theorem idx_at : ∀ (q0 : Fin 4) (q1 : Fin 16) (q2 : Fin 8) (h : (q0.val * 8 + q2.val) * 16 + q1.val < grid0.N),
    win0_5.index ⟨(q0.val * 8 + q2.val) * 16 + q1.val, h⟩ (0 : Fin 4) = q0.val
    ∧ win0_5.index ⟨(q0.val * 8 + q2.val) * 16 + q1.val, h⟩ (1 : Fin 4) = q1.val
    ∧ win0_5.index ⟨(q0.val * 8 + q2.val) * 16 + q1.val, h⟩ (2 : Fin 4) = q2.val := by
  decide +kernel

/-! ## The region: the arrays after the run -/

section Region

variable (m : (ℓ : Loc nD τ sig) → Buf (Elt Ideal) ℓ) (ρ : Dev nD → PrngReg)

/-- The four argument arrays as launched. -/
abbrev Qa (c : Dev nD) : Spec.Sqkv.Idx → EReal := m ((c : Thread nD τ).loc main_arg0)
abbrev Ka (c : Dev nD) : Spec.Sqkv.Idx → EReal := m ((c : Thread nD τ).loc main_arg1)
abbrev Va (c : Dev nD) : Spec.Sqkv.Idx → EReal := m ((c : Thread nD τ).loc main_arg2)
abbrev Ma (c : Dev nD) : Spec.Smask.Idx → BitVec 32 := m ((c : Thread nD τ).loc main_arg3)

/-- The keys as the region finds them: the host's format change of the key argument, which changes no value. -/
theorem V_keys (c : Dev nD) : (V m c main_v0 : S4x16x2048x64.Idx → EReal) = Ka m c := by
  dsimp only [V, hostOps0]; after_results; rfl

/-- The values as the region finds them, likewise. -/
theorem V_vals (c : Dev nD) : (V m c main_v1 : S4x16x2048x64.Idx → EReal) = Va m c := by
  dsimp only [V, hostOps0]; after_results; rfl

section Blocks

variable (c : Dev nD) (t : Fin cfg0.N) (hb : win0_5.index t (0 : Fin 4) < 4) (hh : win0_5.index t (1 : Fin 4) < 16) (hq : win0_5.index t (2 : Fin 4) < 8)

/-- The query block at a point is rows `qi · 256 …` of head `h` of batch `b` of the query argument. -/
theorem qblk (r : Fin 256) (d : Fin 64) :
    (iblk m c 0 t : Vec Ideal S1x1x256x64 .f32) (ix4 (0 : Fin 1) (0 : Fin 1) r d)
      = Qa m c (ix4 ⟨win0_5.index t (0 : Fin 4), hb⟩ ⟨win0_5.index t (1 : Fin 4), hh⟩ (tileRow (win0_5.index t (2 : Fin 4)) hq r) d) := by
  obtain ⟨b0, b1, b2, b3, o0, o1, o2, o3, q0, q1, q2, q3, k0, k1, k2, k3, v0, v1, v2, v3, m0, m1, m2, m3, hc⟩ := idx_facts t
  show V m c main_arg0 (((cfg0.win 0).blk t).view.emb (ix4 (0 : Fin 1) (0 : Fin 1) r d)) = _
  rw [V_main_arg0]
  refine congrArg (m ((c : Thread nD τ).loc main_arg0)) (funext fun a => Fin.ext ?_)
  match a with
  | ⟨0, _⟩ => show win0_0.index t (0 : Fin 4) * 1 + 1 * 0 = win0_5.index t (0 : Fin 4); omega
  | ⟨1, _⟩ => show win0_0.index t (1 : Fin 4) * 1 + 1 * 0 = win0_5.index t (1 : Fin 4); omega
  | ⟨2, _⟩ => show win0_0.index t (2 : Fin 4) * 256 + 1 * r.val = win0_5.index t (2 : Fin 4) * 256 + r.val; omega
  | ⟨3, _⟩ => show win0_0.index t (3 : Fin 4) * 64 + 1 * d.val = d.val; omega

/-- The staged key block at a point is all sixteen heads of batch `b` of the key argument. -/
theorem kblk (h' : Fin 16) (cc : Fin 2048) (d : Fin 64) :
    (iblk m c 1 t : Vec Ideal S1x16x2048x64 .bf16) (ix4 (0 : Fin 1) h' cc d)
      = Ka m c (ix4 ⟨win0_5.index t (0 : Fin 4), hb⟩ h' cc d) := by
  obtain ⟨b0, b1, b2, b3, o0, o1, o2, o3, q0, q1, q2, q3, k0, k1, k2, k3, v0, v1, v2, v3, m0, m1, m2, m3, hc⟩ := idx_facts t
  show V m c main_v0 (((cfg0.win 1).blk t).view.emb (ix4 (0 : Fin 1) h' cc d)) = _
  rw [V_keys]
  refine congrArg (m ((c : Thread nD τ).loc main_arg1)) (funext fun a => Fin.ext ?_)
  match a with
  | ⟨0, _⟩ => show win0_1.index t (0 : Fin 4) * 1 + 1 * 0 = win0_5.index t (0 : Fin 4); omega
  | ⟨1, _⟩ => show win0_1.index t (1 : Fin 4) * 16 + 1 * h'.val = h'.val; omega
  | ⟨2, _⟩ => show win0_1.index t (2 : Fin 4) * 2048 + 1 * cc.val = cc.val; omega
  | ⟨3, _⟩ => show win0_1.index t (3 : Fin 4) * 64 + 1 * d.val = d.val; omega

/-- The staged value block, likewise. -/
theorem vblk (h' : Fin 16) (cc : Fin 2048) (d : Fin 64) :
    (iblk m c 2 t : Vec Ideal S1x16x2048x64 .bf16) (ix4 (0 : Fin 1) h' cc d)
      = Va m c (ix4 ⟨win0_5.index t (0 : Fin 4), hb⟩ h' cc d) := by
  obtain ⟨b0, b1, b2, b3, o0, o1, o2, o3, q0, q1, q2, q3, k0, k1, k2, k3, v0, v1, v2, v3, m0, m1, m2, m3, hc⟩ := idx_facts t
  show V m c main_v1 (((cfg0.win 2).blk t).view.emb (ix4 (0 : Fin 1) h' cc d)) = _
  rw [V_vals]
  refine congrArg (m ((c : Thread nD τ).loc main_arg2)) (funext fun a => Fin.ext ?_)
  match a with
  | ⟨0, _⟩ => show win0_2.index t (0 : Fin 4) * 1 + 1 * 0 = win0_5.index t (0 : Fin 4); omega
  | ⟨1, _⟩ => show win0_2.index t (1 : Fin 4) * 16 + 1 * h'.val = h'.val; omega
  | ⟨2, _⟩ => show win0_2.index t (2 : Fin 4) * 2048 + 1 * cc.val = cc.val; omega
  | ⟨3, _⟩ => show win0_2.index t (3 : Fin 4) * 64 + 1 * d.val = d.val; omega

/-- The mask block at a point is rows `qi · 256 …` of the one mask head of batch `b`. -/
theorem mblk (r : Fin 256) (cc : Fin 2048) :
    (iblk m c 3 t : Vec Ideal S1x1x256x2048 .i32) (ix4 (0 : Fin 1) (0 : Fin 1) r cc)
      = Ma m c (ix4 ⟨win0_5.index t (0 : Fin 4), hb⟩ (0 : Fin 1) (tileRow (win0_5.index t (2 : Fin 4)) hq r) cc) := by
  obtain ⟨b0, b1, b2, b3, o0, o1, o2, o3, q0, q1, q2, q3, k0, k1, k2, k3, v0, v1, v2, v3, m0, m1, m2, m3, hc⟩ := idx_facts t
  show V m c main_arg3 (((cfg0.win 3).blk t).view.emb (ix4 (0 : Fin 1) (0 : Fin 1) r cc)) = _
  rw [V_main_arg3]
  refine congrArg (m ((c : Thread nD τ).loc main_arg3)) (funext fun a => Fin.ext ?_)
  match a with
  | ⟨0, _⟩ => show win0_3.index t (0 : Fin 4) * 1 + 1 * 0 = win0_5.index t (0 : Fin 4); omega
  | ⟨1, _⟩ => show win0_3.index t (1 : Fin 4) * 1 + 1 * 0 = 0; omega
  | ⟨2, _⟩ => show win0_3.index t (2 : Fin 4) * 256 + 1 * r.val = win0_5.index t (2 : Fin 4) * 256 + r.val; omega
  | ⟨3, _⟩ => show win0_3.index t (3 : Fin 4) * 2048 + 1 * cc.val = cc.val; omega

end Blocks

/-- WHAT POINT `t` WRITES BACK to the weights array is its block of the specification's weights. -/
theorem flushed5_eq (c : Dev nD) (t : Fin cfg0.N) :
    (dats m 0 c).flushed 5 t = ((cfg0.win 5).blk t).view.read (Elt Ideal) (Spec.attnArr (Qa m c) (Ka m c) (Ma m c)) := by
  obtain ⟨b0, b1, b2, b3, o0, o1, o2, o3, q0, q1, q2, q3, k0, k1, k2, k3, v0, v1, v2, v3, m0, m1, m2, m3, hc⟩ := idx_facts t
  have hb : win0_5.index t (0 : Fin 4) < 4 := by omega
  have hh : win0_5.index t (1 : Fin 4) < 16 := by omega
  have hq : win0_5.index t (2 : Fin 4) < 8 := by omega
  rw [Value.flushed5_A, out5_eq]
  funext j
  show k0_pay3 (iblk m c 0 t) (headOf (grid0.coords t) (iblk m c 1 t)) (iblk m c 3 t) j
      = Spec.attnArr (Qa m c) (Ka m c) (Ma m c) (((cfg0.win 5).blk t).view.emb j)
  have hj0 : (j 0).val < 1 := (j 0).isLt
  have hj1 : (j 1).val < 1 := (j 1).isLt
  refine attn_point (Qa m c) (Ka m c) (Ma m c) (iblk m c 0 t) (iblk m c 1 t) (iblk m c 3 t) (grid0.coords t)
    (win0_5.index t (0 : Fin 4)) (win0_5.index t (1 : Fin 4)) (win0_5.index t (2 : Fin 4)) hb hh hq
    (qblk m c t hb hh hq) (kblk m c t hb) (mblk m c t hb hq) ?_ j (((cfg0.win 5).blk t).view.emb j) ?_ ?_ ?_ ?_
  · rw [k0_off1_eq, hc]
  · show win0_5.index t (0 : Fin 4) * 1 + 1 * (j 0).val = win0_5.index t (0 : Fin 4); omega
  · show win0_5.index t (1 : Fin 4) * 1 + 1 * (j 1).val = win0_5.index t (1 : Fin 4); omega
  · show win0_5.index t (2 : Fin 4) * 256 + 1 * (j 2).val = win0_5.index t (2 : Fin 4) * 256 + (j 2).val; omega
  · show win0_5.index t (3 : Fin 4) * 2048 + 1 * (j 3).val = (j 3).val; omega

/-- WHAT POINT `t` WRITES BACK to the output array is its block of the specification's output. -/
theorem flushed4_eq (c : Dev nD) (t : Fin cfg0.N) :
    (dats m 0 c).flushed 4 t = ((cfg0.win 4).blk t).view.read (Elt Ideal) (Spec.outArr (Qa m c) (Ka m c) (Va m c) (Ma m c)) := by
  obtain ⟨b0, b1, b2, b3, o0, o1, o2, o3, q0, q1, q2, q3, k0, k1, k2, k3, v0, v1, v2, v3, m0, m1, m2, m3, hc⟩ := idx_facts t
  have hb : win0_5.index t (0 : Fin 4) < 4 := by omega
  have hh : win0_5.index t (1 : Fin 4) < 16 := by omega
  have hq : win0_5.index t (2 : Fin 4) < 8 := by omega
  rw [Value.flushed4_A, out4_eq]
  funext j
  show k0_pay1 (k0_pay4 (iblk m c 0 t) (headOf (grid0.coords t) (iblk m c 1 t)) (headOf (grid0.coords t) (iblk m c 2 t)) (iblk m c 3 t)) j
      = Spec.outArr (Qa m c) (Ka m c) (Va m c) (Ma m c) (((cfg0.win 4).blk t).view.emb j)
  have hj0 : (j 0).val < 1 := (j 0).isLt
  have hj1 : (j 1).val < 1 := (j 1).isLt
  refine out_point (Qa m c) (Ka m c) (Va m c) (Ma m c) (iblk m c 0 t) (iblk m c 1 t) (iblk m c 2 t) (iblk m c 3 t) (grid0.coords t)
    (win0_5.index t (0 : Fin 4)) (win0_5.index t (1 : Fin 4)) (win0_5.index t (2 : Fin 4)) hb hh hq
    (qblk m c t hb hh hq) (kblk m c t hb) (vblk m c t hb) (mblk m c t hb hq) ?_ j (((cfg0.win 4).blk t).view.emb j) ?_ ?_ ?_ ?_
  · rw [k0_off1_eq, hc]
  · show win0_4.index t (0 : Fin 4) * 1 + 1 * (j 0).val = win0_5.index t (0 : Fin 4); omega
  · show win0_4.index t (1 : Fin 4) * 1 + 1 * (j 1).val = win0_5.index t (1 : Fin 4); omega
  · show win0_4.index t (2 : Fin 4) * 256 + 1 * (j 2).val = win0_5.index t (2 : Fin 4) * 256 + (j 2).val; omega
  · show win0_4.index t (3 : Fin 4) * 64 + 1 * (j 3).val = (j 3).val; omega

/-- An index of the weights array is in point `t`'s block iff each coordinate is in the block's range on its axis. -/
theorem mem_blk5 (t : Fin cfg0.N) (i : S4x16x2048x2048.Idx) :
    i ∈ ((cfg0.win 5).blk t).view.set ↔ ∀ a : Fin 4, win0_5.index t a * S1x1x256x2048.size a ≤ (i a).val ∧ (i a).val < win0_5.index t a * S1x1x256x2048.size a + S1x1x256x2048.size a := by
  show i ∈ ((View.whole main_v2_1).slice (win0_5.rect t)).set ↔ _
  rw [View.set_slice_whole, Rect.mem_set_unit]
  exact Iff.rfl

/-- The same for the output array. -/
theorem mem_blk4 (t : Fin cfg0.N) (i : S4x16x2048x64.Idx) :
    i ∈ ((cfg0.win 4).blk t).view.set ↔ ∀ a : Fin 4, win0_4.index t a * S1x1x256x64.size a ≤ (i a).val ∧ (i a).val < win0_4.index t a * S1x1x256x64.size a + S1x1x256x64.size a := by
  show i ∈ ((View.whole main_v2_0).slice (win0_4.rect t)).set ↔ _
  rw [View.set_slice_whole, Rect.mem_set_unit]
  exact Iff.rfl

/-- The point that writes entry `(i0, i1, i2, ·)`: batch `i0`, row tile `i2 / 256`, head `i1`. -/
theorem point_lt (i0 i1 i2 : ℕ) (h0 : i0 < 4) (h1 : i1 < 16) (h2 : i2 < 2048) : (i0 * 8 + i2 / 256) * 16 + i1 < grid0.N := by
  rw [N_eq]; omega

/-- Every entry of the weights array is in some point's block. -/
theorem cover5 (i : S4x16x2048x2048.Idx) :
    ∃ t : Fin cfg0.N, (cfg0.win 5).flush t = true ∧ i ∈ ((cfg0.win 5).blk t).view.set := by
  have h0 : (i 0).val < 4 := (i 0).isLt
  have h1 : (i 1).val < 16 := (i 1).isLt
  have h2 : (i 2).val < 2048 := (i 2).isLt
  have h3 : (i 3).val < 2048 := (i 3).isLt
  have hq : (i 2).val / 256 < 8 := by omega
  have hN := point_lt (i 0).val (i 1).val (i 2).val h0 h1 h2
  obtain ⟨e0, e1, e2⟩ := idx_at ⟨(i 0).val, h0⟩ ⟨(i 1).val, h1⟩ ⟨(i 2).val / 256, hq⟩ hN
  have e0' : win0_5.index ⟨((i 0).val * 8 + (i 2).val / 256) * 16 + (i 1).val, hN⟩ (0 : Fin 4) = (i 0).val := e0
  have e1' : win0_5.index ⟨((i 0).val * 8 + (i 2).val / 256) * 16 + (i 1).val, hN⟩ (1 : Fin 4) = (i 1).val := e1
  have e2' : win0_5.index ⟨((i 0).val * 8 + (i 2).val / 256) * 16 + (i 1).val, hN⟩ (2 : Fin 4) = (i 2).val / 256 := e2
  have e3' := (idx_facts ⟨((i 0).val * 8 + (i 2).val / 256) * 16 + (i 1).val, hN⟩).2.2.2.1
  refine ⟨⟨((i 0).val * 8 + (i 2).val / 256) * 16 + (i 1).val, hN⟩, flush0_5 _, ?_⟩
  rw [mem_blk5]
  intro a
  match a with
  | ⟨0, _⟩ => show win0_5.index _ (0 : Fin 4) * 1 ≤ (i 0).val ∧ (i 0).val < win0_5.index _ (0 : Fin 4) * 1 + 1; rw [e0']; omega
  | ⟨1, _⟩ => show win0_5.index _ (1 : Fin 4) * 1 ≤ (i 1).val ∧ (i 1).val < win0_5.index _ (1 : Fin 4) * 1 + 1; rw [e1']; omega
  | ⟨2, _⟩ => show win0_5.index _ (2 : Fin 4) * 256 ≤ (i 2).val ∧ (i 2).val < win0_5.index _ (2 : Fin 4) * 256 + 256; rw [e2']; omega
  | ⟨3, _⟩ => show win0_5.index _ (3 : Fin 4) * 2048 ≤ (i 3).val ∧ (i 3).val < win0_5.index _ (3 : Fin 4) * 2048 + 2048; rw [e3']; omega

/-- Every entry of the output array is in some point's block. -/
theorem cover4 (i : S4x16x2048x64.Idx) :
    ∃ t : Fin cfg0.N, (cfg0.win 4).flush t = true ∧ i ∈ ((cfg0.win 4).blk t).view.set := by
  have h0 : (i 0).val < 4 := (i 0).isLt
  have h1 : (i 1).val < 16 := (i 1).isLt
  have h2 : (i 2).val < 2048 := (i 2).isLt
  have h3 : (i 3).val < 64 := (i 3).isLt
  have hq : (i 2).val / 256 < 8 := by omega
  have hN := point_lt (i 0).val (i 1).val (i 2).val h0 h1 h2
  obtain ⟨e0, e1, e2⟩ := idx_at ⟨(i 0).val, h0⟩ ⟨(i 1).val, h1⟩ ⟨(i 2).val / 256, hq⟩ hN
  have e0' : win0_5.index ⟨((i 0).val * 8 + (i 2).val / 256) * 16 + (i 1).val, hN⟩ (0 : Fin 4) = (i 0).val := e0
  have e1' : win0_5.index ⟨((i 0).val * 8 + (i 2).val / 256) * 16 + (i 1).val, hN⟩ (1 : Fin 4) = (i 1).val := e1
  have e2' : win0_5.index ⟨((i 0).val * 8 + (i 2).val / 256) * 16 + (i 1).val, hN⟩ (2 : Fin 4) = (i 2).val / 256 := e2
  obtain ⟨-, -, -, -, o0, o1, o2, o3, -⟩ := idx_facts ⟨((i 0).val * 8 + (i 2).val / 256) * 16 + (i 1).val, hN⟩
  refine ⟨⟨((i 0).val * 8 + (i 2).val / 256) * 16 + (i 1).val, hN⟩, flush0_4 _, ?_⟩
  rw [mem_blk4]
  intro a
  match a with
  | ⟨0, _⟩ => show win0_4.index _ (0 : Fin 4) * 1 ≤ (i 0).val ∧ (i 0).val < win0_4.index _ (0 : Fin 4) * 1 + 1; rw [o0, e0']; omega
  | ⟨1, _⟩ => show win0_4.index _ (1 : Fin 4) * 1 ≤ (i 1).val ∧ (i 1).val < win0_4.index _ (1 : Fin 4) * 1 + 1; rw [o1, e1']; omega
  | ⟨2, _⟩ => show win0_4.index _ (2 : Fin 4) * 256 ≤ (i 2).val ∧ (i 2).val < win0_4.index _ (2 : Fin 4) * 256 + 256; rw [o2, e2']; omega
  | ⟨3, _⟩ => show win0_4.index _ (3 : Fin 4) * 64 ≤ (i 3).val ∧ (i 3).val < win0_4.index _ (3 : Fin 4) * 64 + 64; rw [o3]; omega

/-- The weights array after the run is the specification's. -/
theorem final5 (c : Dev nD) : (dats m 0 c).arrAt 5 cfg0.N = Spec.attnArr (Qa m c) (Ka m c) (Ma m c) :=
  (dats m 0 c).arrAt_eq_of_cover 5 (Spec.attnArr (Qa m c) (Ka m c) (Ma m c)) (fun t _ => flushed5_eq m c t) cover5

/-- The output array after the run is the specification's. -/
theorem final4 (c : Dev nD) : (dats m 0 c).arrAt 4 cfg0.N = Spec.outArr (Qa m c) (Ka m c) (Va m c) (Ma m c) :=
  (dats m 0 c).arrAt_eq_of_cover 4 (Spec.outArr (Qa m c) (Ka m c) (Va m c) (Ma m c)) (fun t _ => flushed4_eq m c t) cover4

/-- The kernel's run, read: both result arrays at the specification's functions of the arguments, the arguments unchanged. -/
theorem run : θ_run defs (onTc (τ := τ) (main (F := Ideal))) ⟨m, fun _ => 0, ρ⟩ fun r => ∀ c : Dev nD,
      r.2.mem ((c : Thread nD τ).loc main_v2_0) = Spec.outArr (Qa m c) (Ka m c) (Va m c) (Ma m c)
      ∧ r.2.mem ((c : Thread nD τ).loc main_v2_1) = Spec.attnArr (Qa m c) (Ka m c) (Ma m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Region

end Cert.KernelIdeal.AttnValue

end
-- ==== Proof.Consts.lean ====
/- The two float words whose values the bridge between the kernel's scaling and the reference's needs:
   `8.0`, by which the reference divides the queries, and `0.125`, by which the kernel multiplies them.
   Both are dyadic, so each word denotes exactly the rational it spells. -/
import Idealize.ShloMosaic.PureOps.Ideal

noncomputable section

namespace Cert.Attn.Consts

open Idealize.ShloMosaic

/-- The word `0x41000000` denotes the real `8`. -/
theorem ofBits_eight : Ideal.ofBits .f32 0x41000000#32 = ((8 : ℝ) : EReal) := by
  simp [Ideal.ofBits, Ideal.ieee, -EReal.coe_mul]; norm_num

/-- The word `0x3E000000` denotes the real `1/8`. -/
theorem ofBits_eighth : Ideal.ofBits .f32 0x3E000000#32 = ((1 / 8 : ℝ) : EReal) := by
  simp [Ideal.ofBits, Ideal.ieee, -EReal.coe_mul]; norm_num

/-- Dividing by the word `8.0` is multiplying by the word `0.125`, on every extended real. -/
theorem div_eight_eq_mul_eighth (x : EReal) :
    Ideal.div x (Ideal.ofBits .f32 0x41000000#32) = x * Ideal.ofBits .f32 0x3E000000#32 := by
  rw [ofBits_eight, ofBits_eighth, Ideal.div_coe (by norm_num : (8 : ℝ) ≠ 0)]

end Cert.Attn.Consts

end
-- ==== Proof.RefRow.lean ====
/- The reference's two results, entry by entry, at the ideal instance.

   The reference computes the whole arrays at once: the queries divided by `8.0`, a batched matrix product with the
   keys over the 64 features, the fill where the mask word is zero (one mask head broadcast over the sixteen), the
   softmax along the last axis (row maximum — once more maximised with `-∞`, which changes nothing —, shifted
   exponential, row sum from zero, quotient), and a batched matrix product of the weights with the values. Read
   stage by stage at an index `(b, h, r, ·)`, each stage is the row specification's function of query row
   `(b, h, r)`, the keys and values of head `(b, h)` and mask row `(b, r)`. The one step that is not a re-indexing
   is the scale: dividing by the word `8.0` is multiplying by the word `0.125`. -/
import proofs.«407198_j1580547967909_3_alg».proof.Proof.Gen.ReferenceIdeal.Read
import proofs.«407198_j1580547967909_3_alg».proof.Proof.Spec
import proofs.«407198_j1580547967909_3_alg».proof.Proof.Consts
import Idealize.ShloMosaic.PureOps.Ideal.Laws
import Idealize.ShloMosaic.PureOps.Reduce
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.Attn

variable (q k v : (⟨S4x16x2048x64, .f32⟩ : BufTy).Contents (Elt Ideal)) (mask : (⟨S4x1x2048x2048, .i32⟩ : BufTy).Contents (Elt Ideal))

/-- The scores' last axis can be reduced away. -/
theorem reduces_last : S4x16x2048x2048.Reduces [3] S4x16x2048 := by decide

/-- The reduced index `(b, h, r)` with coordinate `c` put back on the last axis is `(b, h, r, c)`. -/
theorem lift_last (b : Fin 4) (h : Fin 16) (r : Fin 2048) (c : Fin 2048) :
    reduces_last.lift (ix3 b h r) c = ix4 b h r c :=
  funext fun a => Fin.ext (by match a with | ⟨0, _⟩ => rfl | ⟨1, _⟩ => rfl | ⟨2, _⟩ => rfl | ⟨3, _⟩ => rfl)

/-- Row `(b, h, r)` of the masked scores, as the reference computes it. -/
abbrev scoreRow (b : Fin 4) (h : Fin 16) (r : Fin 2048) : Fin 2048 → EReal :=
  fun c => val_main_v5 (F := Ideal) q k mask (ix4 b h r c)

/-- The masked scores at `(b, h, r, c)`: the row specification's score. -/
theorem v5_apply (b : Fin 4) (h : Fin 16) (r : Fin 2048) (c : Fin 2048) :
    val_main_v5 (F := Ideal) q k mask (ix4 b h r c)
      = Spec.score (Spec.qRow q b h r) (Spec.headRows k b h) (Spec.maskRow mask b r) c := by
  have e1 : idx_main_call0_v1 (ix4 b h r c) = ix4 b (0 : Fin 1) r c :=
    funext fun a => Fin.ext (by match a with | ⟨0, _⟩ => rfl | ⟨1, _⟩ => rfl | ⟨2, _⟩ => rfl | ⟨3, _⟩ => rfl)
  rw [val_main_v5_apply, val_main_call0_v1_apply, val_main_v4_apply, val_main_v3_apply, val_main_c_apply,
    val_main_call0_v2_apply, val_main_call0_v0_apply, val_main_cst_0_apply, val_main_v2_apply, e1]
  unfold Spec.score
  refine congrArg (Scalar.select _ _) (Finset.sum_congr rfl fun d _ => ?_)
  have el : lidx_main_v2 (ix4 b h r c) d = ix4 b h r d :=
    funext fun a => Fin.ext (by match a with | ⟨0, _⟩ => rfl | ⟨1, _⟩ => rfl | ⟨2, _⟩ => rfl | ⟨3, _⟩ => rfl)
  have er : ridx_main_v2 (ix4 b h r c) d = ix4 b h c d :=
    funext fun a => Fin.ext (by match a with | ⟨0, _⟩ => rfl | ⟨1, _⟩ => rfl | ⟨2, _⟩ => rfl | ⟨3, _⟩ => rfl)
  rw [val_main_v1_apply, val_main_v0_apply, val_main_cst_apply, el, er]
  show Ideal.div (q (ix4 b h r d)) (Ideal.ofBits .f32 0x41000000#32) * k (ix4 b h c d) = _
  rw [Consts.div_eight_eq_mul_eighth]

/-- The row maximum at `(b, h, r)`: the fold of `max` from `-∞` over the row of scores; the reference's second
    maximum with `-∞` leaves it as it is. -/
theorem v8_apply (b : Fin 4) (h : Fin 16) (r : Fin 2048) :
    val_main_v8 (F := Ideal) q k mask (ix3 b h r) = Spec.rowMaxOf (scoreRow q k mask b h r) := by
  have h6 : val_main_v6 (F := Ideal) q k mask (ix3 b h r) = Spec.rowMaxOf (scoreRow q k mask b h r) := by
    unfold val_main_v6
    refine (Host.reduce_eq_fold_single FloatOps.maximumf _ _ reducesTo_S4x16x2048x2048_S4x16x2048_d3 reduces_last h_S_ (ix3 b h r)).trans ?_
    unfold Spec.rowMaxOf
    show Finset.fold max (Ideal.ofBits .f32 0xFF800000#32) _ Finset.univ = _
    refine congrArg (Finset.fold max _ · Finset.univ) (funext fun c => ?_)
    exact congrArg (val_main_v5 (F := Ideal) q k mask) (lift_last b h r c)
  rw [val_main_v8_apply, val_main_v7_apply, val_main_cst_2_apply, h6]
  exact Spec.max_negInf_rowMaxOf _

/-- The shifted exponential at `(b, h, r, c)`. -/
theorem v12_apply (b : Fin 4) (h : Fin 16) (r : Fin 2048) (c : Fin 2048) :
    val_main_v12 (F := Ideal) q k mask (ix4 b h r c) = Spec.expoOf (scoreRow q k mask b h r) c := by
  have e10 : idx_main_v10 (ix4 b h r c) = ix4 b h r (0 : Fin 1) :=
    funext fun a => Fin.ext (by match a with | ⟨0, _⟩ => rfl | ⟨1, _⟩ => rfl | ⟨2, _⟩ => rfl | ⟨3, _⟩ => rfl)
  have e9 : idx_main_v9 (ix4 b h r (0 : Fin 1)) = ix3 b h r :=
    funext fun a => Fin.ext (by match a with | ⟨0, _⟩ => rfl | ⟨1, _⟩ => rfl | ⟨2, _⟩ => rfl)
  rw [val_main_v12_apply, val_main_v11_apply, val_main_v10_apply, e10, val_main_v9_apply, e9, v8_apply]
  rfl

/-- The row sum at `(b, h, r)`: the reference starts it from the word of zero. -/
theorem v13_apply (b : Fin 4) (h : Fin 16) (r : Fin 2048) :
    val_main_v13 (F := Ideal) q k mask (ix3 b h r) = Spec.rowSumOf (scoreRow q k mask b h r) := by
  rw [val_main_v13_apply, val_main_cst_3_apply]
  show Ideal.ofBits .f32 0x00000000#32 + _ = _
  rw [Ideal.ofBits_zero_f32, zero_add]
  unfold Spec.rowSumOf
  refine Finset.sum_congr rfl fun c _ => ?_
  have e13 : idx_main_v13 (ix3 b h r) c = ix4 b h r c :=
    funext fun a => Fin.ext (by match a with | ⟨0, _⟩ => rfl | ⟨1, _⟩ => rfl | ⟨2, _⟩ => rfl | ⟨3, _⟩ => rfl)
  rw [e13, v12_apply]

/-- The attention weights at `(b, h, r, c)`. -/
theorem v16_apply (b : Fin 4) (h : Fin 16) (r : Fin 2048) (c : Fin 2048) :
    val_main_v16 (F := Ideal) q k mask (ix4 b h r c)
      = Spec.prob (Spec.qRow q b h r) (Spec.headRows k b h) (Spec.maskRow mask b r) c := by
  have e15 : idx_main_v15 (ix4 b h r c) = ix4 b h r (0 : Fin 1) :=
    funext fun a => Fin.ext (by match a with | ⟨0, _⟩ => rfl | ⟨1, _⟩ => rfl | ⟨2, _⟩ => rfl | ⟨3, _⟩ => rfl)
  have e14 : idx_main_v14 (ix4 b h r (0 : Fin 1)) = ix3 b h r :=
    funext fun a => Fin.ext (by match a with | ⟨0, _⟩ => rfl | ⟨1, _⟩ => rfl | ⟨2, _⟩ => rfl)
  rw [val_main_v16_apply, val_main_v15_apply, e15, val_main_v14_apply, e14, v13_apply, v12_apply]
  show Spec.softmaxOf (scoreRow q k mask b h r) c = _
  unfold Spec.prob
  exact congrArg (Spec.softmaxOf · c) (funext fun c' => v5_apply q k mask b h r c')

/-- The attention output at `(b, h, r, e)`. -/
theorem v17_apply (b : Fin 4) (h : Fin 16) (r : Fin 2048) (e : Fin 64) :
    val_main_v17 (F := Ideal) q k v mask (ix4 b h r e)
      = Spec.out (Spec.qRow q b h r) (Spec.headRows k b h) (Spec.maskRow mask b r) (Spec.headRows v b h) e := by
  rw [val_main_v17_apply]
  unfold Spec.out
  refine Finset.sum_congr rfl fun c _ => ?_
  have el : lidx_main_v17 (ix4 b h r e) c = ix4 b h r c :=
    funext fun a => Fin.ext (by match a with | ⟨0, _⟩ => rfl | ⟨1, _⟩ => rfl | ⟨2, _⟩ => rfl | ⟨3, _⟩ => rfl)
  have er : ridx_main_v17 (ix4 b h r e) c = ix4 b h c e :=
    funext fun a => Fin.ext (by match a with | ⟨0, _⟩ => rfl | ⟨1, _⟩ => rfl | ⟨2, _⟩ => rfl | ⟨3, _⟩ => rfl)
  rw [el, er, v16_apply]

/-- The reference's weights array is the specification's. -/
theorem attn_eq : val_main_v16 (F := Ideal) q k mask = Spec.attnArr q k mask := funext fun i => by
  obtain ⟨b, h, r, c, rfl⟩ : ∃ (b : Fin 4) (h : Fin 16) (r : Fin 2048) (c : Fin 2048), i = ix4 b h r c :=
    ⟨i 0, i 1, i 2, i 3, eq_ix4 i⟩
  exact v16_apply q k mask b h r c

/-- The reference's output array is the specification's. -/
theorem out_eq : val_main_v17 (F := Ideal) q k v mask = Spec.outArr q k v mask := funext fun i => by
  obtain ⟨b, h, r, e, rfl⟩ : ∃ (b : Fin 4) (h : Fin 16) (r : Fin 2048) (e : Fin 64), i = ix4 b h r e :=
    ⟨i 0, i 1, i 2, i 3, eq_ix4 i⟩
  exact v17_apply q k v mask b h r e

end Cert.ReferenceIdeal.RefValue

end
-- ==== Proof.lean ====
/- Scaled dot-product attention with an integer mask, as a Pallas kernel over a grid of (batch, row tile, head)
   points against the plain jnp reference: at the ideal instance both compute, for every query row, the softmax
   of its masked scores against the head's keys and that softmax applied to the head's values.

   The three frames: the kernel's two (as printed and idealized) are the generated class-R frames; the reference's is
   its generated run with the results dropped. The ideal pass rewrote nothing, so `preserves` is `True`.

   `algebraic`: the kernel's run leaves the output and weights arrays at `Spec.outArr` and `Spec.attnArr` of the four
   arguments (KernelValue.lean, over the body's payloads read at an index in KernelRow.lean); the reference's run
   leaves its two results at the same functions of arguments that agree (RefRow.lean, over the generated
   read-at-an-index lemmas). The two sides differ in arrangement only — the kernel's blocks against the whole
   arrays, its matrix products into zero accumulators against the host's batched ones, its format changes, the
   reference's extra maximum with `-∞` — and in one arithmetic step: the kernel multiplies the queries by `0.125`
   where the reference divides them by `8.0`, the same function on every extended real (Consts.lean). No step
   needs the inputs finite. -/
import proofs.«407198_j1580547967909_3_alg».proof.Defs
import proofs.«407198_j1580547967909_3_alg».proof.Proof.Gen.Kernel
import proofs.«407198_j1580547967909_3_alg».proof.Proof.Gen.Kernel.Skeleton
import proofs.«407198_j1580547967909_3_alg».proof.Proof.Gen.Kernel.Launch
import proofs.«407198_j1580547967909_3_alg».proof.Proof.Gen.Kernel.Points
import proofs.«407198_j1580547967909_3_alg».proof.Proof.Gen.Kernel.Frame
import proofs.«407198_j1580547967909_3_alg».proof.Proof.Gen.KernelIdeal
import proofs.«407198_j1580547967909_3_alg».proof.Proof.Gen.KernelIdeal.Skeleton
import proofs.«407198_j1580547967909_3_alg».proof.Proof.Gen.KernelIdeal.Launch
import proofs.«407198_j1580547967909_3_alg».proof.Proof.Gen.KernelIdeal.Points
import proofs.«407198_j1580547967909_3_alg».proof.Proof.Gen.KernelIdeal.Frame
import proofs.«407198_j1580547967909_3_alg».proof.Proof.Gen.ReferenceIdeal
import proofs.«407198_j1580547967909_3_alg».proof.Proof.Gen.Pre_finite_inputs
import proofs.«407198_j1580547967909_3_alg».proof.Proof.Gen.KernelIdeal.Value
import proofs.«407198_j1580547967909_3_alg».proof.Proof.Gen.ReferenceIdeal.Run
import proofs.«407198_j1580547967909_3_alg».proof.Proof.Gen.ReferenceIdeal.Read
import proofs.«407198_j1580547967909_3_alg».proof.Proof.KernelValue
import proofs.«407198_j1580547967909_3_alg».proof.Proof.RefRow
import Idealize.ShloMosaic.Adequacy
import Idealize.ShloMosaic.Init

noncomputable section

namespace Cert.Proof

open Idealize.ShloMosaic Idealize.ShloMosaic.TcCoe Idealize.SL.Sem
open Cert.Attn Cert.KernelIdeal.AttnValue

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both idealized programs end with the output array at `Spec.outArr` and the weights array at `Spec.attnArr` of the
    kernel's arguments: the kernel by its run read block by block, the reference by its run read stage by stage, its
    arguments being the kernel's. -/
theorem algebraic : Cert.algebraic_KernelIdeal_ReferenceIdeal := by
  intro m ρ m' ρ' _ hagree
  refine ⟨fun c => Spec.outArr (Qa m c) (Ka m c) (Va m c) (Ma m c), fun c => Spec.attnArr (Qa m c) (Ka m c) (Ma m c),
    Cert.KernelIdeal.AttnValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2]
    exact (Cert.ReferenceIdeal.Read.val_main_v17_eq (F := Ideal) _ _ _ _).trans (Cert.ReferenceIdeal.RefValue.out_eq _ _ _ _)
  · rw [(hagree c).1, (hagree c).2.1, (hagree c).2.2.2]
    exact (Cert.ReferenceIdeal.Read.val_main_v16_eq (F := Ideal) _ _ _).trans (Cert.ReferenceIdeal.RefValue.attn_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
